-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S6400000 : Shape := ⟨1, ![6400000]⟩
abbrev S100000 : Shape := ⟨1, ![100000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S2x6400000 32) (main_arg1 : FVec F S6400000 .f32) (main_arg2 : FVec F S100000 .f32) (main_arg3 : FVec F S100000 .f32) (main_arg4 : FVec F S100000 .f32) : IVec S_ 1 :=
  let main_v0 : FVec F S6400000 .f32 := Host.absf main_arg1
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S2x6400000 : Shape := ⟨2, ![2, 6400000]⟩
abbrev S6400000 : Shape := ⟨1, ![6400000]⟩
abbrev S100000 : Shape := ⟨1, ![100000]⟩
abbrev S1x6400000 : Shape := ⟨2, ![1, 6400000]⟩
abbrev S_ : Shape := ⟨0, ![]⟩
abbrev S6400000x1 : Shape := ⟨2, ![6400000, 1]⟩
abbrev S50000x128 : Shape := ⟨2, ![50000, 128]⟩
abbrev S2000x128 : Shape := ⟨2, ![2000, 128]⟩
abbrev S100352 : Shape := ⟨1, ![100352]⟩
abbrev S784x128 : Shape := ⟨2, ![784, 128]⟩
abbrev S1x1 : Shape := ⟨2, ![1, 1]⟩
abbrev S784 : Shape := ⟨1, ![784]⟩
abbrev S784x1 : Shape := ⟨2, ![784, 1]⟩
abbrev S1 : Shape := ⟨1, ![1]⟩

abbrev nBuf : Space → Nat
  | .hbm => 65
  | .vmem => 12
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .f32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S6400000, .f32⟩
  | .hbm, ⟨32, _⟩ => ⟨S6400000, .f32⟩
  | .hbm, ⟨33, _⟩ => ⟨S_, .i32⟩
  | .hbm, ⟨34, _⟩ => ⟨S6400000, .i32⟩
  | .hbm, ⟨35, _⟩ => ⟨S6400000, .i1⟩
  | .hbm, ⟨36, _⟩ => ⟨S_, .i32⟩
  | .hbm, ⟨37, _⟩ => ⟨S6400000, .i32⟩
  | .hbm, ⟨38, _⟩ => ⟨S6400000, .i32⟩
  | .hbm, ⟨39, _⟩ => ⟨S6400000, .i32⟩
  | .hbm, ⟨40, _⟩ => ⟨S6400000x1, .i32⟩
  | .hbm, ⟨41, _⟩ => ⟨S100000, .f32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S100000, .f32⟩
  | .hbm, ⟨51, _⟩ => ⟨S_, .i32⟩
  | .hbm, ⟨52, _⟩ => ⟨S_, .f32⟩
  | .hbm, ⟨53, _⟩ => ⟨S100352, .f32⟩
  | .hbm, ⟨54, _⟩ => ⟨S784x128, .f32⟩
  | .hbm, ⟨55, _⟩ => ⟨S_, .i32⟩
  | .hbm, ⟨56, _⟩ => ⟨S_, .f32⟩
  | .hbm, ⟨57, _⟩ => ⟨S100352, .f32⟩
  | .hbm, ⟨58, _⟩ => ⟨S784x128, .f32⟩
  | .hbm, ⟨59, _⟩ => ⟨S_, .i32⟩
  | .hbm, ⟨60, _⟩ => ⟨S_, .f32⟩
  | .hbm, ⟨61, _⟩ => ⟨S100352, .f32⟩
  | .hbm, ⟨62, _⟩ => ⟨S784x128, .f32⟩
  | .hbm, ⟨63, _⟩ => ⟨S1x1, .f32⟩
  | .hbm, ⟨64, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S784x128, .f32⟩
  | .local _ .vmem, ⟨9, _⟩ => ⟨S784x128, .f32⟩
  | .local _ .vmem, ⟨10, _⟩ => ⟨S784x128, .f32⟩
  | .local _ .vmem, ⟨11, _⟩ => ⟨S1x1, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_call0_v0 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_call2_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S784x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S784x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  pads_S100000_S100352_03520 : S100000.Pads (![0] : Fin 1 → Nat) ![352] ![0] S100352
  h_S_ : 0 < S_.numel
  shapeCasts_S100352_S784x128 : S100352.ShapeCasts S784x128
  inb_S784x128_S784x128_0_0 : ∀ a, (![0, 0] : Fin 2 → Nat) a + S784x128.size a ≤ S784x128.size a
  h_S784x128 : 0 < S784x128.numel
  shapeCasts_S784x128_S784x128 : S784x128.ShapeCasts S784x128
  reduces_S784x128_S784 : S784x128.Reduces [1] S784
  shapeCasts_S784_S784x1 : S784.ShapeCasts S784x1
  reduces_S784x1_S1 : S784x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S784x128.size a ≤ S784x128.size a
  hwx1_0 : ∀ i : grid1.Coords, EltTy.bits .f32 = 32 ∨ (Rect.block (s := S784x128) S784x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S784x128.size a ≤ S784x128.size a
  hwx1_1 : ∀ i : grid1.Coords, EltTy.bits .f32 = 32 ∨ (Rect.block (s := S784x128) S784x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S784x128.size a ≤ S784x128.size a
  hwx1_2 : ∀ i : grid1.Coords, EltTy.bits .f32 = 32 ∨ (Rect.block (s := S784x128) S784x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S784x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S784x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S784x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x6400000 : Shape := ⟨2, ![2, 6400000]⟩
abbrev S6400000 : Shape := ⟨1, ![6400000]⟩
abbrev S100000 : Shape := ⟨1, ![100000]⟩
abbrev S1x6400000 : Shape := ⟨2, ![1, 6400000]⟩
abbrev S_ : Shape := ⟨0, ![]⟩
abbrev S6400000x1 : Shape := ⟨2, ![6400000, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .f32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000, .f32⟩
  | .hbm, ⟨27, _⟩ => ⟨S6400000, .f32⟩
  | .hbm, ⟨28, _⟩ => ⟨S6400000, .f32⟩
  | .hbm, ⟨29, _⟩ => ⟨S_, .f32⟩
  | .hbm, ⟨30, _⟩ => ⟨S6400000, .f32⟩
  | .hbm, ⟨31, _⟩ => ⟨S6400000, .f32⟩
  | .hbm, ⟨32, _⟩ => ⟨S6400000, .f32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S100000, .f32⟩
  | .hbm, ⟨43, _⟩ => ⟨S_, .i32⟩
  | .hbm, ⟨44, _⟩ => ⟨S6400000, .i32⟩
  | .hbm, ⟨45, _⟩ => ⟨S6400000, .i1⟩
  | .hbm, ⟨46, _⟩ => ⟨S_, .i32⟩
  | .hbm, ⟨47, _⟩ => ⟨S6400000, .i32⟩
  | .hbm, ⟨48, _⟩ => ⟨S6400000, .i32⟩
  | .hbm, ⟨49, _⟩ => ⟨S6400000, .i32⟩
  | .hbm, ⟨50, _⟩ => ⟨S6400000x1, .i32⟩
  | .hbm, ⟨51, _⟩ => ⟨S100000, .f32⟩
  | .hbm, ⟨52, _⟩ => ⟨S100000, .f32⟩
  | .hbm, ⟨53, _⟩ => ⟨S100000, .f32⟩
  | .hbm, ⟨54, _⟩ => ⟨S_, .f32⟩
  | .hbm, ⟨55, _⟩ => ⟨S_, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S100000_S_d0 : S100000.ReducesTo [0] S_
  h_S_ : 0 < S_.numel
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The arithmetic the two programs share, stated away from either program's text.

  (1) The transfer along an edge, |a − b| · κ · w with κ the single-precision word nearest one tenth, is computed
      entry by entry. So the shape the three operands are laid out in does not matter: the reshaped result is the
      result of the reshaped operands.

  (2) The total Σ (y · t − c) over the 100000 nodes. The kernel pads each of the three vectors with zeros to
      100352 = 784 · 128 entries, lays them out as 784 rows of 128 lanes, and sums the lanes of each row, then the
      rows. A reshape re-indexes by a bijection, and addition of extended reals is commutative and associative, so
      the double sum is the sum over all 100352 padded entries; each of the last 352 is 0 · 0 − 0 = 0, so it is
      the sum over the 100000 entries of the vectors themselves. No finiteness is used: only that addition is a
      commutative monoid and that the padding value is zero.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

namespace Cert.Traffic

open Idealize.ShloMosaic Idealize.ShloMosaic.TcCoe Idealize.ShloMosaic.ValueIdx

/-! ## Reshaping -/

/-- Summing a reshaped array over its indices is summing the array over its own: the reshape matches the two index
    sets one to one. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-! ## The transfer along each edge -/

section Transfer

variable {F : FTy → Type} [FloatOps F]

/-- The traffic moved along each edge: the absolute difference of the endpoint traffics, times one tenth (as the
    single-precision word `0x3DCCCCCD`), times the edge's weight — entry by entry, in whatever shape the edges
    are laid out. -/
def transfer {s : Shape} (a b w : s.Idx → Elt F .f32) : s.Idx → Elt F .f32 := fun i =>
  FloatOps.mulf (FloatOps.mulf (FloatOps.absf (FloatOps.subf (a i) (b i))) (FloatOps.ofBits .f32 0x3DCCCCCD#32)) (w i)

/-- Reshaping the transfers is taking the transfers of the reshaped operands. -/
theorem shapeCast_transfer {s t : Shape} (a b w : s.Idx → Elt F .f32) (h : s.ShapeCasts t) :
    shapeCast t (transfer a b w) h = transfer (shapeCast t a h) (shapeCast t b h) (shapeCast t w h) := rfl

end Transfer

/-! ## The padded vectors and their sum -/

/-- The node vectors' shape. -/
abbrev Sn : Shape := ⟨1, ![100000]⟩
/-- The padded vectors' shape: 352 more entries. -/
abbrev Sp : Shape := ⟨1, ![100352]⟩
/-- The padded vectors as 784 rows of 128 lanes. -/
abbrev Sg : Shape := ⟨2, ![784, 128]⟩
/-- The scalar shape of the padding value. -/
abbrev Su : Shape := ⟨0, ![]⟩

/-- A node's index, as an index of the padded vector. -/
def up (k : Sn.Idx) : Sp.Idx := ix1 (⟨(k 0).val, lt_of_lt_of_le (k 0).isLt (by decide)⟩ : Fin 100352)

theorem up_injective : Function.Injective up := fun a b h => by
  funext d
  match d with
  | ⟨0, _⟩ => exact Fin.ext (congrArg (fun j : Sp.Idx => (j 0).val) h)

section Padded

variable {α : Type} (x : Sn.Idx → α) (z : Su.Idx → α) (h : Sn.Pads ![0] ![352] ![0] Sp) (hu : 0 < Su.numel)

/-- The vector with 352 copies of the padding value behind it. -/
abbrev padded : Sp.Idx → α := pad Sp ![0] ![352] ![0] x z h hu

/-- At a node's index the padded vector is the vector. -/
theorem padded_up (k : Sn.Idx) : padded x z h hu (up k) = x k :=
  pad_apply_of_inside _ _ _ x z h hu _ k (fun a => by
    match a with
    | ⟨0, _⟩ => show (k 0).val = 0 + (k 0).val * (0 + 1); omega)

/-- Past the nodes it is the padding value. -/
theorem padded_off (j : Sp.Idx) (hj : j ∉ Set.range up) : padded x z h hu j = z (Shape.Idx.first hu) :=
  pad_apply_of_not_inside _ _ _ x z h hu j (0 : Fin 1) (fun hin => hj (by
    have h3 : ((j 0).val - 0) / (0 + 1) < 100000 := hin.2.2
    have hlt : (j 0).val < 100000 := by omega
    refine ⟨ix1 (⟨(j 0).val, hlt⟩ : Fin 100000), ?_⟩
    funext d
    match d with
    | ⟨0, _⟩ => exact Fin.ext rfl))

end Padded

section Total

variable (y t c : Sn.Idx → EReal) (z : Su.Idx → EReal) (h : Sn.Pads ![0] ![352] ![0] Sp) (hu : 0 < Su.numel)
  (hz : z (Shape.Idx.first hu) = 0)

include hz in
/-- The sum of y · t − c over the zero-padded vectors is the sum over the vectors: every padded entry adds 0 · 0 − 0. -/
theorem sum_padded :
    ∑ j : Sp.Idx, (padded y z h hu j * padded t z h hu j - padded c z h hu j) = ∑ k : Sn.Idx, (y k * t k - c k) :=
  (Fintype.sum_of_injective up up_injective (fun k => y k * t k - c k)
    (fun j => padded y z h hu j * padded t z h hu j - padded c z h hu j)
    (fun j hj => by
      rw [padded_off y z h hu j hj, padded_off t z h hu j hj, padded_off c z h hu j hj, hz]
      simp)
    (fun k => by rw [padded_up, padded_up, padded_up])).symm

include hz in
/-- The lanes of each of the 784 rows summed, then the rows: the sum over the nodes. -/
theorem sum_rows_lanes (hc : Sp.ShapeCasts Sg) :
    ∑ r : Fin 784, ∑ l : Fin 128,
        (shapeCast Sg (padded y z h hu) hc (ix2 r l) * shapeCast Sg (padded t z h hu) hc (ix2 r l)
          - shapeCast Sg (padded c z h hu) hc (ix2 r l))
      = ∑ k : Sn.Idx, (y k * t k - c k) := by
  rw [← sum_idx2 (fun i : Sg.Idx =>
    shapeCast Sg (padded y z h hu) hc i * shapeCast Sg (padded t z h hu) hc i - shapeCast Sg (padded c z h hu) hc i)]
  exact (sum_shapeCast (fun j : Sp.Idx => padded y z h hu j * padded t z h hu j - padded c z h hu j) hc).trans
    (sum_padded y t c z h hu hz)

end Total

end Cert.Traffic

end
-- ==== Proof.Region0.lean ====
/-
  What the first pallas_call leaves in its output array.

  The grid has 25 points. Point t loads rows 2000 t … 2000 t + 1999 of the three operand arrays (the gathered traffic
  at the edges' sources, at their destinations, and the edge weights, each laid out as 50000 rows of 128 lanes),
  computes the transfer on that slab of 2000 × 128 entries, entry by entry, and writes the slab back to the same rows
  of the output array. All four windows move together (row block t, lane block 0), so entry (p, q) of the output
  depends only on entry (p, q) of the operands; and the 25 slabs tile the 50000 rows, so every entry is written.
  Hence the output array is the transfer of the three operand arrays, as whole arrays.
-/
import proofs.«162073_j85117661872492_1_alg».proof.Proof.Gen.KernelIdeal.Frame
import proofs.«162073_j85117661872492_1_alg».proof.Proof.Spec
import Idealize.ShloMosaic.Lib.Pipeline.Value

set_option maxRecDepth 16384

noncomputable section

namespace Cert.KernelIdeal.Slabs

open Cert.KernelIdeal Cert.KernelIdeal.Gen Cert.Traffic
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The gathered source traffic, as the call finds it: 50000 rows of 128 lanes. -/
abbrev srcT (c : Dev nD) : Vec F S50000x128 .f32 := V c main_v18
/-- The gathered destination traffic. -/
abbrev dstT (c : Dev nD) : Vec F S50000x128 .f32 := V c main_v19
/-- The edge weights. -/
abbrev wgt (c : Dev nD) : Vec F S50000x128 .f32 := V c main_v20

theorem hz : (![0, 0] : Fin 2 → Nat) = fun _ => 0 := funext fun a => by fin_cases a <;> rfl

/-- The body's stored value is the transfer of its three loaded slabs (the body's reshapes are to the slab's own
    shape, hence the identity). -/
theorem pay_eq (x0 x1 x2 : Vec F S2000x128 .f32) : k0_pay1 x0 x1 x2 = transfer x0 x1 x2 := by
  unfold k0_pay1
  simp only [shapeCast_self]
  rfl

/-- The four index maps, over the grid: each operand's window sits on the output window's block, which is row block
    t (at most 24) and lane block 0. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 24 ∧ win0_3.index t (1 : Fin 2) = 0 :=
  (by decide +kernel : ∀ t : Fin grid0.N, _)

/-- Every row block is some point's. -/
theorem idx_onto : ∀ q : Fin 25, ∃ t : Fin cfg0.N, win0_3.index t = ![q.val, 0] :=
  (by decide +kernel : ∀ q : Fin 25, ∃ t : Fin grid0.N, win0_3.index t = ![q.val, 0])

/-- What point t writes back is slab t of the transfer of the whole operand arrays. -/
theorem flushed_eq (c : Dev nD) (t : Fin cfg0.N) :
    (dat0 V c).flushed 3 t
      = ((cfg0.win 3).blk t).view.read (Elt F) (transfer (srcT V c) (dstT V c) (wgt V c)) := by
  show (cfg0.win 3).cut (grid0.coords t) ((dat0 V c).after 3 t) = _
  rw [after0_3]
  unfold out0_3
  rw [View.canon_unit_zero hz]
  simp only [View.ld_unit_zero (S := S2000x128) hz]
  rw [pay_eq]
  obtain ⟨e00, e01, e10, e11, e20, e21, -, -⟩ := idx_facts t
  funext j
  have h0 : ((cfg0.win 0).blk t).view.emb j = ((cfg0.win 3).blk t).view.emb j := by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 128 + 1 * (j 1).val = win0_3.index t (1 : Fin 2) * 128 + 1 * (j 1).val; omega
  show FloatOps.mulf (FloatOps.mulf (FloatOps.absf (FloatOps.subf (V c main_v18 (((cfg0.win 0).blk t).view.emb j))
        (V c main_v19 (((cfg0.win 1).blk t).view.emb j)))) (FloatOps.ofBits .f32 0x3DCCCCCD#32))
        (V c main_v20 (((cfg0.win 2).blk t).view.emb j))
      = FloatOps.mulf (FloatOps.mulf (FloatOps.absf (FloatOps.subf (V c main_v18 (((cfg0.win 3).blk t).view.emb j))
        (V c main_v19 (((cfg0.win 3).blk t).view.emb j)))) (FloatOps.ofBits .f32 0x3DCCCCCD#32))
        (V c main_v20 (((cfg0.win 3).blk t).view.emb j))
  rw [h0, h1, h2]

/-- An entry of the output array lies in point t's slab iff each coordinate lies in the slab's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v21).slice (win0_3.rect t)).set ↔ _
  rw [View.set_slice_whole, Rect.mem_set_unit]
  exact Iff.rfl

/-- The slabs tile the array: entry (p, q) lies in the slab of the point whose row block is p / 2000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the call: the transfer of the three operand arrays. -/
theorem final (c : Dev nD) :
    (dat0 V c).arrAt 3 cfg0.N = transfer (srcT V c) (dstT V c) (wgt V c) :=
  (dat0 V c).arrAt_eq_of_cover 3 _ (fun t _ => flushed_eq V c t) cover

end Cert.KernelIdeal.Slabs

end
-- ==== Proof.Region1.lean ====
/-
  What the second pallas_call leaves in its one-entry output array.

  The grid has one point, and each window's block is its whole array: the three padded node vectors, each laid out as
  784 rows of 128 lanes, and the 1 × 1 output. The body forms y · t − c entry by entry, sums the 128 lanes of each
  row, and then sums the 784 row sums; the result is stored into the output's single entry. Read over the extended
  reals, a sum of one axis is a finite sum over that axis's coordinates, so the stored value is the double sum over
  rows and lanes of y · t − c.
-/
import proofs.«162073_j85117661872492_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The stored value, over the extended reals -/

/-- Row r, lane l, as the index the lane sum reads for row r at lane l. -/
theorem lane_idx (r : Fin 784) (l : Fin 128) :
    reduces_S784x128_S784.lift (ix1 r) l = ix2 r l := by
  funext a; apply Fin.ext
  match a with
  | ⟨0, _⟩ => rfl
  | ⟨1, _⟩ => rfl

/-- Row r of the column of row sums, as the index the sum over rows reads at row r. -/
theorem row_idx (r : Fin 784) :
    reduces_S784x1_S1.lift (ix1 (0 : Fin 1)) r = ix2 r (0 : Fin 1) := by
  funext a; apply Fin.ext
  match a with
  | ⟨0, _⟩ => rfl
  | ⟨1, _⟩ => rfl

/-- The body's stored value at its one index: the sum over the 784 rows of the sum over the 128 lanes of y · t − c. -/
theorem pay_total (Y T C : Vec Ideal S784x128 .f32) (j : S1x1.Idx) :
    k1_pay1 (F := Ideal) Y T C j
      = ∑ r : Fin 784, ∑ l : Fin 128, (Y (ix2 r l) * T (ix2 r l) - C (ix2 r l)) := by
  unfold k1_pay1
  simp only [shapeCast_self]
  have h0 : (j 0).val < 1 := (j 0).isLt
  have h1 : (j 1).val < 1 := (j 1).isLt
  refine (shapeCast_apply _ shapeCasts_S1_S1x1 j (ix1 (0 : Fin 1)) (by
    rw [Shape.rowMajor_val_one, Shape.rowMajor_val_two]
    show 0 = (j 0).val * 1 + (j 1).val
    omega)).trans ?_
  refine (Ideal.multiReduction_add_single _ _ reduces_S784x1_S1 _ _ (ix1 (0 : Fin 1))).trans ?_
  refine Finset.sum_congr rfl fun r _ => ?_
  rw [row_idx r]
  refine (shapeCast_apply _ shapeCasts_S784_S784x1 (ix2 r (0 : Fin 1)) (ix1 r) (by
    rw [Shape.rowMajor_val_one, Shape.rowMajor_val_two]
    show r.val = r.val * 1 + 0
    omega)).trans ?_
  refine (Ideal.multiReduction_add_single _ _ reduces_S784x128_S784 _ _ (ix1 r)).trans ?_
  refine Finset.sum_congr rfl fun l _ => ?_
  rw [lane_idx r l]
  rfl

/-! ## The output array after the call -/

variable {F : FTy → Type} [FloatOps F]
variable (V : (c : Dev nD) → (b : Ref sig .tc) → Buf (Elt F) ((c : Thread nD τ).loc b))

/-- The padded yield rates, as the call finds them: 784 rows of 128 lanes. -/
abbrev yPad (c : Dev nD) : Vec F S784x128 .f32 := V c main_v39
/-- The padded new traffic. -/
abbrev tPad (c : Dev nD) : Vec F S784x128 .f32 := V c main_v41
/-- The padded costs. -/
abbrev cPad (c : Dev nD) : Vec F S784x128 .f32 := V c main_v43

theorem hz : (![0, 0] : Fin 2 → Nat) = fun _ => 0 := funext fun a => by fin_cases a <;> rfl

/-- All four index maps send the one grid point to block (0, 0). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What the one point writes back is the body's value of the three whole arrays, read through the output's block
    (which is the whole output). -/
theorem flushed_eq (c : Dev nD) (t : Fin cfg1.N) :
    (dat1 V c).flushed 3 t
      = ((cfg1.win 3).blk t).view.read (Elt F) (k1_pay1 (yPad V c) (tPad V c) (cPad V c)) := by
  show (cfg1.win 3).cut (grid1.coords t) ((dat1 V c).after 3 t) = _
  rw [after1_3]
  unfold out1_3
  rw [View.canon_unit_zero hz]
  simp only [View.ld_unit_zero (S := S784x128) hz]
  obtain ⟨e00, e01, e10, e11, e20, e21, e30, e31⟩ := idx_facts t
  have b0 : iblk1 V c 0 t = yPad V c := funext fun y => congrArg (V c main_v39) (by
    funext a; apply Fin.ext
    match a with
    | ⟨0, _⟩ => show win1_0.index t (0 : Fin 2) * 784 + 1 * (y 0).val = (y 0).val; omega
    | ⟨1, _⟩ => show win1_0.index t (1 : Fin 2) * 128 + 1 * (y 1).val = (y 1).val; omega)
  have b1 : iblk1 V c 1 t = tPad V c := funext fun y => congrArg (V c main_v41) (by
    funext a; apply Fin.ext
    match a with
    | ⟨0, _⟩ => show win1_1.index t (0 : Fin 2) * 784 + 1 * (y 0).val = (y 0).val; omega
    | ⟨1, _⟩ => show win1_1.index t (1 : Fin 2) * 128 + 1 * (y 1).val = (y 1).val; omega)
  have b2 : iblk1 V c 2 t = cPad V c := funext fun y => congrArg (V c main_v43) (by
    funext a; apply Fin.ext
    match a with
    | ⟨0, _⟩ => show win1_2.index t (0 : Fin 2) * 784 + 1 * (y 0).val = (y 0).val; omega
    | ⟨1, _⟩ => show win1_2.index t (1 : Fin 2) * 128 + 1 * (y 1).val = (y 1).val; omega)
  rw [b0, b1, b2]
  funext j
  refine congrArg (k1_pay1 (yPad V c) (tPad V c) (cPad V c)) ?_
  funext a; apply Fin.ext
  match a with
  | ⟨0, _⟩ => show (j 0).val = win1_3.index t (0 : Fin 2) * 1 + 1 * (j 0).val; omega
  | ⟨1, _⟩ => show (j 1).val = win1_3.index t (1 : Fin 2) * 1 + 1 * (j 1).val; omega

/-- The output's one entry lies in the one point's block. -/
theorem cover (i : S1x1.Idx) :
    ∃ t : Fin cfg1.N, (cfg1.win 3).flush t = true ∧ i ∈ ((cfg1.win 3).blk t).view.set := by
  have hi0 : (i 0).val < 1 := (i 0).isLt
  have hi1 : (i 1).val < 1 := (i 1).isLt
  obtain ⟨-, -, -, -, -, -, e30, e31⟩ := idx_facts t1_0
  refine ⟨t1_0, flush1_3 t1_0, ?_⟩
  show i ∈ ((View.whole main_v44).slice (win1_3.rect t1_0)).set
  rw [View.set_slice_whole, Rect.mem_set_unit]
  intro a
  match a with
  | ⟨0, _⟩ => show win1_3.index t1_0 (0 : Fin 2) * 1 ≤ (i 0).val ∧ (i 0).val < win1_3.index t1_0 (0 : Fin 2) * 1 + 1; omega
  | ⟨1, _⟩ => show win1_3.index t1_0 (1 : Fin 2) * 1 ≤ (i 1).val ∧ (i 1).val < win1_3.index t1_0 (1 : Fin 2) * 1 + 1; omega

/-- The output array after the call: the body's value of the three padded arrays. -/
theorem final (c : Dev nD) :
    (dat1 V c).arrAt 3 cfg1.N = k1_pay1 (yPad V c) (tPad V c) (cPad V c) :=
  (dat1 V c).arrAt_eq_of_cover 3 _ (fun t _ => flushed_eq V c t) cover

end Cert.KernelIdeal.Whole

end
-- ==== Proof.KHost.lean ====
/-
  The kernel program's two results as functions of its arguments.

  Between the launch and the return the program's buffers pass through a chain of host stretches and the two
  pallas_calls. Reading the chain back from the end:

    the total     is the one entry of the second call's output, reshaped to a scalar; the second call's operands are
                  the yield rates, the NEW traffic and the costs, each zero-padded to 100352 entries and reshaped to
                  784 × 128;
    the new traffic is the old traffic with −transfer added at every edge's source and +transfer at its destination,
                  where transfer is the first call's output reshaped back to one entry per edge;
    the first call's operands are the old traffic gathered at the edges' sources and at their destinations, and the
                  edge weights, each reshaped to 50000 × 128.

  The pieces the host computes (the two rows of the edge list, the wrap-around of negative indices, the gather, the
  zero padding, the two scatter-adds) are named once here as functions, so that each is compared with the reference's
  as a whole and never opened.
-/
import proofs.«162073_j85117661872492_1_alg».proof.Proof.Gen.KernelIdeal.Frame
import proofs.«162073_j85117661872492_1_alg».proof.Proof.Region0
import proofs.«162073_j85117661872492_1_alg».proof.Proof.Region1
import Idealize.ShloMosaic.Lib.StableHlo.Run

set_option maxRecDepth 16384

noncomputable section

namespace Cert.KernelIdeal.Host

open Cert.KernelIdeal Cert.KernelIdeal.Gen Cert.Traffic
open Idealize.ShloMosaic Idealize.ShloMosaic.TcCoe Idealize.SL.Sem Idealize.ShloMosaic.StableHlo

variable {F : FTy → Type} [FloatOps F]

/-! ## The host's pieces, as functions -/

/-- The edges' source nodes: row 0 of the edge list. -/
def srcRow (e : (⟨S2x6400000, .i32⟩ : BufTy).Contents (Elt F)) : (⟨S6400000, .i32⟩ : BufTy).Contents (Elt F) :=
  shapeCast S6400000 (extractStridedSlice S1x6400000 ![0, 0] e slices_S2x6400000_S1x6400000_0_0) shapeCasts_S1x6400000_S6400000

/-- The edges' destination nodes: row 1 of the edge list. -/
def dstRow (e : (⟨S2x6400000, .i32⟩ : BufTy).Contents (Elt F)) : (⟨S6400000, .i32⟩ : BufTy).Contents (Elt F) :=
  shapeCast S6400000 (extractStridedSlice S1x6400000 ![1, 0] e slices_S2x6400000_S1x6400000_1_0) shapeCasts_S1x6400000_S6400000

/-- Node indices made ready for a gather or a scatter: a negative index counts from the end (100000 is added), and
    the vector becomes a column of one-entry index tuples. -/
def wrapIdx (x : (⟨S6400000, .i32⟩ : BufTy).Contents (Elt F)) : (⟨S6400000x1, .i32⟩ : BufTy).Contents (Elt F) :=
  broadcastInDim S6400000x1 ![0] bcast_S6400000_S6400000x1_0
    (select (cmpi .slt x (broadcastInDim S6400000 ![] bcast_S_S6400000 (constantI S_ 32 0#32)))
      (addi x (broadcastInDim S6400000 ![] bcast_S_S6400000 (constantI S_ 32 100000#32))) x)

/-- The traffic at each edge's endpoint. -/
def gatherAt (t : (⟨S100000, .f32⟩ : BufTy).Contents (Elt F)) (x : (⟨S6400000, .i32⟩ : BufTy).Contents (Elt F)) :
    (⟨S6400000, .f32⟩ : BufTy).Contents (Elt F) :=
  Host.gather gather_S100000_S6400000x1_S6400000_n_0_n_n_0_1_1 t (wrapIdx x)

/-- A node vector with 352 zeros behind it (the padding value is the integer 0 converted to a float). -/
def padZero (x : (⟨S100000, .f32⟩ : BufTy).Contents (Elt F)) : (⟨S100352, .f32⟩ : BufTy).Contents (Elt F) :=
  pad S100352 ![0] ![352] ![0] x (sitofp .f32 (constantI S_ 32 0#32)) pads_S100000_S100352_03520 h_S_

/-- The old traffic with −u added at every edge's source and +u at its destination, u the per-edge transfers. -/
def scatterBoth (t : (⟨S100000, .f32⟩ : BufTy).Contents (Elt F)) (s d : (⟨S6400000, .i32⟩ : BufTy).Contents (Elt F))
    (u : (⟨S6400000, .f32⟩ : BufTy).Contents (Elt F)) : (⟨S100000, .f32⟩ : BufTy).Contents (Elt F) :=
  Host.scatterAdd scatter_S100000_S6400000x1_S6400000_n_0_0_1
    (Host.scatterAdd scatter_S100000_S6400000x1_S6400000_n_0_0_1 t (wrapIdx s) (Host.negf u)) (wrapIdx d) u

/-- The kernel program's new traffic, from the edge list, the edge weights and the old traffic. -/
def newTraffic (e : (⟨S2x6400000, .i32⟩ : BufTy).Contents (Elt F)) (w : (⟨S6400000, .f32⟩ : BufTy).Contents (Elt F))
    (t : (⟨S100000, .f32⟩ : BufTy).Contents (Elt F)) : (⟨S100000, .f32⟩ : BufTy).Contents (Elt F) :=
  scatterBoth t (srcRow e) (dstRow e)
    (shapeCast S6400000
      (transfer (s := S50000x128)
        (shapeCast S50000x128 (gatherAt t (srcRow e)) shapeCasts_S6400000_S50000x128)
        (shapeCast S50000x128 (gatherAt t (dstRow e)) shapeCasts_S6400000_S50000x128)
        (shapeCast S50000x128 w shapeCasts_S6400000_S50000x128))
      shapeCasts_S50000x128_S6400000)

/-- The kernel program's total, from the yield rates, the new traffic and the costs. -/
def total (y n k : (⟨S100000, .f32⟩ : BufTy).Contents (Elt F)) : (⟨S_, .f32⟩ : BufTy).Contents (Elt F) :=
  shapeCast S_
    (k1_pay1 (shapeCast S784x128 (padZero y) shapeCasts_S100352_S784x128)
      (shapeCast S784x128 (padZero n) shapeCasts_S100352_S784x128)
      (shapeCast S784x128 (padZero k) shapeCasts_S100352_S784x128))
    shapeCasts_S1x1_S_

/-! ## Reading the chain of buffer contents -/

variable (m : (ℓ : Loc nD τ sig) → Buf (Elt F) ℓ) (ρ : Dev nD → PrngReg)

/-! ### Before the first call -/

theorem W1_v1 (c : Dev nD) : W1 m ρ c (Proc.devRef .tc main_v1) = srcRow (m ((c : Thread nD τ).loc main_arg0)) := by
  show StableHlo.after hostOps0 (W0 m ρ c) (Proc.devRef .tc main_v1) = _
  after_results_simp <;> rfl

theorem W1_v3 (c : Dev nD) : W1 m ρ c (Proc.devRef .tc main_v3) = dstRow (m ((c : Thread nD τ).loc main_arg0)) := by
  show StableHlo.after hostOps0 (W0 m ρ c) (Proc.devRef .tc main_v3) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

theorem W1_v18 (c : Dev nD) : W1 m ρ c (Proc.devRef .tc main_v18)
    = shapeCast S50000x128 (gatherAt (m ((c : Thread nD τ).loc main_arg3)) (srcRow (m ((c : Thread nD τ).loc main_arg0)))) shapeCasts_S6400000_S50000x128 := by
  show StableHlo.after hostOps0 (W0 m ρ c) (Proc.devRef .tc main_v18) = _
  after_results_simp <;> rfl

theorem W1_v19 (c : Dev nD) : W1 m ρ c (Proc.devRef .tc main_v19)
    = shapeCast S50000x128 (gatherAt (m ((c : Thread nD τ).loc main_arg3)) (dstRow (m ((c : Thread nD τ).loc main_arg0)))) shapeCasts_S6400000_S50000x128 := by
  show StableHlo.after hostOps0 (W0 m ρ c) (Proc.devRef .tc main_v19) = _
  after_results_simp <;> rfl

theorem W1_v20 (c : Dev nD) : W1 m ρ c (Proc.devRef .tc main_v20)
    = shapeCast S50000x128 (m ((c : Thread nD τ).loc main_arg1)) shapeCasts_S6400000_S50000x128 := by
  show StableHlo.after hostOps0 (W0 m ρ c) (Proc.devRef .tc main_v20) = _
  after_results_simp <;> rfl

/-! ### Across the first call: its output array holds the transfers, every other buffer is as before -/

theorem W2_v1 (c : Dev nD) : W2 m ρ c (Proc.devRef .tc main_v1) = srcRow (m ((c : Thread nD τ).loc main_arg0)) :=
  (W2_of_ne m ρ c main_v1 (by decide)).trans (W1_v1 m ρ c)

theorem W2_v3 (c : Dev nD) : W2 m ρ c (Proc.devRef .tc main_v3) = dstRow (m ((c : Thread nD τ).loc main_arg0)) :=
  (W2_of_ne m ρ c main_v3 (by decide)).trans (W1_v3 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

/-- The first call's output array: the transfers of the gathered traffics and the weights, 50000 × 128. -/
theorem W2_v21 (c : Dev nD) : W2 m ρ c (Proc.devRef .tc main_v21)
    = transfer (s := S50000x128)
        (shapeCast S50000x128 (gatherAt (m ((c : Thread nD τ).loc main_arg3)) (srcRow (m ((c : Thread nD τ).loc main_arg0)))) shapeCasts_S6400000_S50000x128)
        (shapeCast S50000x128 (gatherAt (m ((c : Thread nD τ).loc main_arg3)) (dstRow (m ((c : Thread nD τ).loc main_arg0)))) shapeCasts_S6400000_S50000x128)
        (shapeCast S50000x128 (m ((c : Thread nD τ).loc main_arg1)) shapeCasts_S6400000_S50000x128) := by
  refine (W2_arr m ρ c 3).trans ?_
  refine (Slabs.final (V1 m ρ) c).trans ?_
  show transfer (s := S50000x128) (W1 m ρ c (Proc.devRef .tc main_v18)) (W1 m ρ c (Proc.devRef .tc main_v19))
    (W1 m ρ c (Proc.devRef .tc main_v20)) = _
  rw [W1_v18, W1_v19, W1_v20]

/-! ### Between the calls -/

/-- The new traffic, over what the first call left. -/
theorem W9_v37_of (c : Dev nD) : W9 m ρ c (Proc.devRef .tc main_v37)
    = scatterBoth (W2 m ρ c (Proc.devRef .tc main_arg3)) (W2 m ρ c (Proc.devRef .tc main_v1)) (W2 m ρ c (Proc.devRef .tc main_v3))
        (shapeCast S6400000 (W2 m ρ c (Proc.devRef .tc main_v21)) shapeCasts_S50000x128_S6400000) := by
  show StableHlo.after hostOps1_6 (W8 m ρ c) (Proc.devRef .tc main_v37) = _
  after_results_simp <;> rfl

theorem W9_v37 (c : Dev nD) : W9 m ρ c (Proc.devRef .tc main_v37)
    = newTraffic (m ((c : Thread nD τ).loc main_arg0)) (m ((c : Thread nD τ).loc main_arg1)) (m ((c : Thread nD τ).loc main_arg3)) := by
  rw [W9_v37_of, W2_arg3, W2_v1, W2_v3, W2_v21]
  rfl

/-- The padded yield rates, as the second call finds them. -/
theorem W9_v39_of (c : Dev nD) : W9 m ρ c (Proc.devRef .tc main_v39)
    = shapeCast S784x128 (padZero (W2 m ρ c (Proc.devRef .tc main_arg2))) shapeCasts_S100352_S784x128 := by
  show StableHlo.after hostOps1_6 (W8 m ρ c) (Proc.devRef .tc main_v39) = _
  after_results_simp <;> rfl

theorem W9_v39 (c : Dev nD) : W9 m ρ c (Proc.devRef .tc main_v39)
    = shapeCast S784x128 (padZero (m ((c : Thread nD τ).loc main_arg2))) shapeCasts_S100352_S784x128 := by
  rw [W9_v39_of, W2_arg2]

/-- The padded costs. -/
theorem W9_v43_of (c : Dev nD) : W9 m ρ c (Proc.devRef .tc main_v43)
    = shapeCast S784x128 (padZero (W2 m ρ c (Proc.devRef .tc main_arg4))) shapeCasts_S100352_S784x128 := by
  show StableHlo.after hostOps1_6 (W8 m ρ c) (Proc.devRef .tc main_v43) = _
  after_results_simp <;> rfl

theorem W9_v43 (c : Dev nD) : W9 m ρ c (Proc.devRef .tc main_v43)
    = shapeCast S784x128 (padZero (m ((c : Thread nD τ).loc main_arg4))) shapeCasts_S100352_S784x128 := by
  rw [W9_v43_of, W2_arg4]

/-- The padded new traffic. -/
theorem W9_v41_of (c : Dev nD) : W9 m ρ c (Proc.devRef .tc main_v41)
    = shapeCast S784x128 (padZero (scatterBoth (W2 m ρ c (Proc.devRef .tc main_arg3)) (W2 m ρ c (Proc.devRef .tc main_v1))
        (W2 m ρ c (Proc.devRef .tc main_v3)) (shapeCast S6400000 (W2 m ρ c (Proc.devRef .tc main_v21)) shapeCasts_S50000x128_S6400000)))
        shapeCasts_S100352_S784x128 := by
  show StableHlo.after hostOps1_6 (W8 m ρ c) (Proc.devRef .tc main_v41) = _
  after_results_simp <;> rfl

theorem W9_v41 (c : Dev nD) : W9 m ρ c (Proc.devRef .tc main_v41)
    = shapeCast S784x128 (padZero (newTraffic (m ((c : Thread nD τ).loc main_arg0)) (m ((c : Thread nD τ).loc main_arg1))
        (m ((c : Thread nD τ).loc main_arg3)))) shapeCasts_S100352_S784x128 := by
  rw [W9_v41_of, W2_arg3, W2_v1, W2_v3, W2_v21]
  rfl

/-! ### Across the second call, and the return -/

/-- The second call's one-entry output. -/
theorem W10_v44 (c : Dev nD) : W10 m ρ c (Proc.devRef .tc main_v44)
    = k1_pay1 (shapeCast S784x128 (padZero (m ((c : Thread nD τ).loc main_arg2))) shapeCasts_S100352_S784x128)
        (shapeCast S784x128 (padZero (newTraffic (m ((c : Thread nD τ).loc main_arg0)) (m ((c : Thread nD τ).loc main_arg1))
          (m ((c : Thread nD τ).loc main_arg3)))) shapeCasts_S100352_S784x128)
        (shapeCast S784x128 (padZero (m ((c : Thread nD τ).loc main_arg4))) shapeCasts_S100352_S784x128) := by
  refine (W10_arr m ρ c 3).trans ?_
  refine (Whole.final (V9 m ρ) c).trans ?_
  show k1_pay1 (W9 m ρ c (Proc.devRef .tc main_v39)) (W9 m ρ c (Proc.devRef .tc main_v41)) (W9 m ρ c (Proc.devRef .tc main_v43)) = _
  rw [W9_v39, W9_v41, W9_v43]

/-- THE NEW TRAFFIC the program returns, as a function of its arguments. -/
theorem result_new (c : Dev nD) : W11 m ρ c (Proc.devRef .tc main_v37)
    = newTraffic (m ((c : Thread nD τ).loc main_arg0)) (m ((c : Thread nD τ).loc main_arg1)) (m ((c : Thread nD τ).loc main_arg3)) := by
  have e : W11 m ρ c (Proc.devRef .tc main_v37) = W10 m ρ c (Proc.devRef .tc main_v37) := by
    show StableHlo.after hostOps2 (W10 m ρ c) (Proc.devRef .tc main_v37) = _
    after_results_simp <;> rfl
  exact e.trans ((W10_of_ne m ρ c main_v37 (by decide)).trans (W9_v37 m ρ c))

/-- THE TOTAL the program returns, as a function of its arguments. -/
theorem result_total (c : Dev nD) : W11 m ρ c (Proc.devRef .tc main_v45)
    = total (m ((c : Thread nD τ).loc main_arg2))
        (newTraffic (m ((c : Thread nD τ).loc main_arg0)) (m ((c : Thread nD τ).loc main_arg1)) (m ((c : Thread nD τ).loc main_arg3)))
        (m ((c : Thread nD τ).loc main_arg4)) := by
  have e : W11 m ρ c (Proc.devRef .tc main_v45) = shapeCast S_ (W10 m ρ c (Proc.devRef .tc main_v44)) shapeCasts_S1x1_S_ := by
    show StableHlo.after hostOps2 (W10 m ρ c) (Proc.devRef .tc main_v45) = _
    after_results_simp <;> rfl
  rw [e, W10_v44]
  rfl

end Cert.KernelIdeal.Host

end
-- ==== Proof.Bridge.lean ====
/-
  The reference computes the same two functions of the arguments as the kernel program.

  New traffic. Both programs gather the old traffic at the edges' sources and destinations with the same host
  operations, and scatter −u and +u back with the same host operations; they differ only in how the per-edge
  transfers u are made. The reference forms |a − b| · κ · w on the 6400000 edges directly. The kernel program
  reshapes the three operands to 50000 × 128, forms the same product there, and reshapes back; since the product is
  entry by entry and a reshape there and back is the identity, that is the same vector. (Over the extended reals
  the host's absolute value and the kernel's are one function.)

  Total. The reference adds 0 and the sum over the 100000 nodes of y · n − c. The kernel program's total is the sum
  over 784 rows of the sum over 128 lanes of the same expression on the zero-padded vectors, which is the same sum:
  the padding value is the integer 0 converted, the real number 0, and each padded entry adds 0 · 0 − 0 = 0.
-/
import proofs.«162073_j85117661872492_1_alg».proof.Proof.KHost
import proofs.«162073_j85117661872492_1_alg».proof.Proof.Spec
import proofs.«162073_j85117661872492_1_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

namespace Cert.Same

open Cert.KernelIdeal.Host Cert.Traffic Cert.ReferenceIdeal.Read
open Idealize.ShloMosaic Idealize.ShloMosaic.TcCoe Idealize.ShloMosaic.ValueIdx

variable (e : (⟨Cert.KernelIdeal.S2x6400000, .i32⟩ : BufTy).Contents (Elt Ideal))
  (w : (⟨Cert.KernelIdeal.S6400000, .f32⟩ : BufTy).Contents (Elt Ideal))
  (y t k : (⟨Cert.KernelIdeal.S100000, .f32⟩ : BufTy).Contents (Elt Ideal))

/-! ## The shared host pieces -/

/-- The reference gathers the sources' traffic as the kernel program does. -/
theorem src_gather : val_main_v10 (F := Ideal) e t = gatherAt t (srcRow e) := rfl
/-- … and the destinations'. -/
theorem dst_gather : val_main_v17 (F := Ideal) e t = gatherAt t (dstRow e) := rfl
/-- The reference's index column for the first scatter is the wrapped sources. -/
theorem src_col : val_main_v29 (F := Ideal) e = wrapIdx (srcRow e) := rfl
/-- … and for the second the wrapped destinations. -/
theorem dst_col : val_main_v36 (F := Ideal) e = wrapIdx (dstRow e) := rfl

/-! ## The per-edge transfers -/

/-- The reference's transfers are the transfer function of the two gathered vectors and the weights. -/
theorem transfer_ref :
    transfer (s := Cert.KernelIdeal.S6400000) (gatherAt t (srcRow e)) (gatherAt t (dstRow e)) w = val_main_v22 (F := Ideal) e w t := by
  rw [← src_gather, ← dst_gather]
  rfl

/-- THE NEW TRAFFIC: the kernel program's is the reference's. -/
theorem new_ref : newTraffic (F := Ideal) e w t = val_main_v37 (F := Ideal) e w t := by
  unfold newTraffic
  rw [shapeCast_transfer, shapeCast_shapeCast, shapeCast_shapeCast, shapeCast_shapeCast, transfer_ref]
  unfold scatterBoth val_main_v37 val_main_v30 val_main_v23
  rw [src_col, dst_col]
  rfl

/-! ## The total -/

/-- The padding value, the integer 0 converted to a float, is the real number 0. -/
theorem zero_pad :
    sitofp (F := Ideal) .f32 (constantI Cert.KernelIdeal.S_ 32 0#32) (Shape.Idx.first Cert.KernelIdeal.Gen.h_S_) = 0 := by
  show (((0#32 : BitVec 32).toInt : ℝ) : EReal) = 0
  simp

/-- The reference's sum starts from the real number 0. -/
theorem zero_init : val_main_cst_7 (F := Ideal) (Shape.Idx.first Cert.ReferenceIdeal.Gen.h_S_) = 0 := by
  rw [val_main_cst_7_apply]
  exact Ideal.ofBits_zero_f32

/-- THE TOTAL: the kernel program's, over the reference's new traffic, is the reference's. -/
theorem total_ref (i : Cert.KernelIdeal.S_.Idx) :
    total (F := Ideal) y (val_main_v37 (F := Ideal) e w t) k i = val_main_v40 (F := Ideal) e w y t k i := by
  rw [val_main_v40_apply, zero_init, zero_add]
  unfold total
  have hi : (Shape.rowMajor Cert.KernelIdeal.S_ i).val < 1 := (Shape.rowMajor Cert.KernelIdeal.S_ i).isLt
  refine (shapeCast_apply _ Cert.KernelIdeal.Gen.shapeCasts_S1x1_S_ i (ix2 (0 : Fin 1) (0 : Fin 1)) (by
    rw [Shape.rowMajor_val_two]
    show 0 * 1 + 0 = _
    omega)).trans ?_
  refine (Cert.KernelIdeal.Whole.pay_total _ _ _ _).trans ?_
  refine (sum_rows_lanes y (val_main_v37 (F := Ideal) e w t) k _ Cert.KernelIdeal.Gen.pads_S100000_S100352_03520 Cert.KernelIdeal.Gen.h_S_ zero_pad
    Cert.KernelIdeal.Gen.shapeCasts_S100352_S784x128).trans ?_
  rfl

end Cert.Same

end
-- ==== Proof.lean ====
/-
  Traffic redistribution on a graph of 100000 nodes and 6400000 edges, as a Pallas program against its jnp reference.

  For every edge (s, d) with weight w the transfer is u = |traffic[s] − traffic[d]| · κ · w (κ the single-precision
  word nearest one tenth, the same word in both programs); the new traffic is the old one with −u added at s and +u
  added at d over all edges; the total is the sum over the nodes of yield · new traffic − cost.

  The two programs gather and scatter with the same host operations. They differ in two places, and over the extended
  reals neither changes a value:
    · the kernel program forms the transfers in a pallas_call over 25 slabs of a 50000 × 128 layout of the edges,
      the reference on the flat edge vector: the product is entry by entry, and a reshape there and back is the
      identity;
    · the kernel program sums yield · new − cost in a second pallas_call over the vectors zero-padded to 784 × 128,
      lanes first and then rows, the reference as one sum from 0: addition is commutative and associative, and the
      352 padded entries each add 0 · 0 − 0 = 0.
  No finiteness of the inputs is used anywhere: the precondition is never opened.

  The three frames: each kernel program's is its generated frame certificate; the reference has no kernel, and its
  frame is its run with the results dropped. The idealization rewrote no operation, so there is nothing to preserve.
-/
import proofs.«162073_j85117661872492_1_alg».proof.Defs
import proofs.«162073_j85117661872492_1_alg».proof.Proof.Gen.Kernel
import proofs.«162073_j85117661872492_1_alg».proof.Proof.Gen.Kernel.Skeleton
import proofs.«162073_j85117661872492_1_alg».proof.Proof.Gen.Kernel.Launch
import proofs.«162073_j85117661872492_1_alg».proof.Proof.Gen.Kernel.Points
import proofs.«162073_j85117661872492_1_alg».proof.Proof.Gen.Kernel.Frame
import proofs.«162073_j85117661872492_1_alg».proof.Proof.Gen.KernelIdeal
import proofs.«162073_j85117661872492_1_alg».proof.Proof.Gen.KernelIdeal.Skeleton
import proofs.«162073_j85117661872492_1_alg».proof.Proof.Gen.KernelIdeal.Launch
import proofs.«162073_j85117661872492_1_alg».proof.Proof.Gen.KernelIdeal.Points
import proofs.«162073_j85117661872492_1_alg».proof.Proof.Gen.KernelIdeal.Frame
import proofs.«162073_j85117661872492_1_alg».proof.Proof.Gen.ReferenceIdeal
import proofs.«162073_j85117661872492_1_alg».proof.Proof.Gen.ReferenceIdeal.Run
import proofs.«162073_j85117661872492_1_alg».proof.Proof.Gen.ReferenceIdeal.Read
import proofs.«162073_j85117661872492_1_alg».proof.Proof.Gen.Pre_finite_inputs
import proofs.«162073_j85117661872492_1_alg».proof.Proof.KRun
import proofs.«162073_j85117661872492_1_alg».proof.Proof.KHost
import proofs.«162073_j85117661872492_1_alg».proof.Proof.Bridge
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run, its two results dropped
    exact fun m ρ _ => (θ_run Cert.ReferenceIdeal.defs _ _).mono (fun _ h c => (h c).2.2)
      (Cert.ReferenceIdeal.Value.run (F := Ideal) m ρ)
  · -- both programs end with the new traffic and the total at ONE pair of functions of the arguments
    intro m ρ m' ρ' _ hagree
    refine ⟨fun c => Cert.KernelIdeal.Host.newTraffic (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)),
      fun c => Cert.KernelIdeal.Host.total (m ((c.tc : Thread Cert.KernelIdeal.nD Cert.KernelIdeal.τ).loc Cert.KernelIdeal.main_arg2))
          (Cert.KernelIdeal.Host.newTraffic (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3)))
          (m ((c.tc : Thread Cert.KernelIdeal.nD Cert.KernelIdeal.τ).loc Cert.KernelIdeal.main_arg4)), ?_, ?_⟩
    · -- the kernel program: its run with the results named, each read back to the arguments
      exact (θ_run Cert.KernelIdeal.defs _ _).mono (fun r h c =>
          ⟨(h c).1.trans (Cert.KernelIdeal.Host.result_new m ρ c),
           (h c).2.1.trans (Cert.KernelIdeal.Host.result_total m ρ c), (h c).2.2⟩)
        (Cert.KernelIdeal.Named.run m ρ)
    · -- the reference: its run, the arguments' agreement, and the two comparisons
      refine (θ_run Cert.ReferenceIdeal.defs _ _).mono (fun r h c => ?_)
        (Cert.ReferenceIdeal.Value.run (F := Ideal) m' ρ')
      obtain ⟨h37, h40, hargs⟩ := h c
      obtain ⟨a0, a1, a2, a3, a4⟩ := hagree c
      refine ⟨h37.trans ?_, h40.trans ?_, hargs⟩
      · rw [Cert.ReferenceIdeal.Read.val_main_v37_eq, a0, a1, a3]
        exact (Cert.Same.new_ref _ _ _).symm
      · rw [Cert.ReferenceIdeal.Read.val_main_v40_eq, a0, a1, a2, a3, a4]
        funext i
        beta_reduce
        rw [Cert.Same.new_ref]
        exact (Cert.Same.total_ref _ _ _ _ _ i).symm⟩

end Cert.Proof

end
